-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x2048 : Shape := ⟨2, ![4096, 2048]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : IVec S4096x2048 32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096 .f32 := Host.absf main_arg2
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  main_v8
-- ==== Kernel.lean ====
abbrev S8192x4096 : Shape := ⟨2, ![8192, 4096]⟩
abbrev S4096x2048 : Shape := ⟨2, ![4096, 2048]⟩
abbrev S4096 : Shape := ⟨1, ![4096]⟩
abbrev S_ : Shape := ⟨0, ![]⟩
abbrev S4096x2048x1 : Shape := ⟨3, ![4096, 2048, 1]⟩
abbrev S4096x2048x2 : Shape := ⟨3, ![4096, 2048, 2]⟩
abbrev S4096x4096 : Shape := ⟨2, ![4096, 4096]⟩
abbrev S1x4096 : Shape := ⟨2, ![1, 4096]⟩
abbrev S512x4096 : Shape := ⟨2, ![512, 4096]⟩
abbrev S1x512 : Shape := ⟨2, ![1, 512]⟩
abbrev S512x512 : Shape := ⟨2, ![512, 512]⟩
abbrev S512x1 : Shape := ⟨2, ![512, 1]⟩
abbrev S512 : Shape := ⟨1, ![512]⟩

abbrev nBuf : Space → Nat
  | .hbm => 33
  | .vmem => 10
  | .smem => 0
  | _ => 0

abbrev bufTy : (tb : Table) → Fin (tcTables nBuf tb) → BufTy
  | .hbm, ⟨0, _⟩ => ⟨S8192x4096, .f32⟩
  | .hbm, ⟨1, _⟩ => ⟨S4096x2048, .i32⟩
  | .hbm, ⟨2, _⟩ => ⟨S4096, .f32⟩
  | .hbm, ⟨3, _⟩ => ⟨S_, .i32⟩
  | .hbm, ⟨4, _⟩ => ⟨S4096x2048, .i32⟩
  | .hbm, ⟨5, _⟩ => ⟨S4096x2048, .i32⟩
  | .hbm, ⟨6, _⟩ => ⟨S_, .i32⟩
  | .hbm, ⟨7, _⟩ => ⟨S4096x2048, .i32⟩
  | .hbm, ⟨8, _⟩ => ⟨S4096x2048, .i32⟩
  | .hbm, ⟨9, _⟩ => ⟨S_, .i32⟩
  | .hbm, ⟨10, _⟩ => ⟨S4096x2048, .i32⟩
  | .hbm, ⟨11, _⟩ => ⟨S4096x2048, .i32⟩
  | .hbm, ⟨12, _⟩ => ⟨S_, .i32⟩
  | .hbm, ⟨13, _⟩ => ⟨S4096x2048, .i32⟩
  | .hbm, ⟨14, _⟩ => ⟨S4096x2048, .i1⟩
  | .hbm, ⟨15, _⟩ => ⟨S_, .i32⟩
  | .hbm, ⟨16, _⟩ => ⟨S4096x2048, .i32⟩
  | .hbm, ⟨17, _⟩ => ⟨S4096x2048, .i32⟩
  | .hbm, ⟨18, _⟩ => ⟨S4096x2048, .i32⟩
  | .hbm, ⟨19, _⟩ => ⟨S_, .i32⟩
  | .hbm, ⟨20, _⟩ => ⟨S4096x2048, .i32⟩
  | .hbm, ⟨21, _⟩ => ⟨S4096x2048, .i1⟩
  | .hbm, ⟨22, _⟩ => ⟨S_, .i32⟩
  | .hbm, ⟨23, _⟩ => ⟨S4096x2048, .i32⟩
  | .hbm, ⟨24, _⟩ => ⟨S4096x2048, .i32⟩
  | .hbm, ⟨25, _⟩ => ⟨S4096x2048, .i32⟩
  | .hbm, ⟨26, _⟩ => ⟨S4096x2048x1, .i32⟩
  | .hbm, ⟨27, _⟩ => ⟨S4096x2048x1, .i32⟩
  | .hbm, ⟨28, _⟩ => ⟨S4096x2048x2, .i32⟩
  | .hbm, ⟨29, _⟩ => ⟨S4096x4096, .i32⟩
  | .hbm, ⟨30, _⟩ => ⟨S4096x4096, .bf16⟩
  | .hbm, ⟨31, _⟩ => ⟨S1x4096, .f32⟩
  | .hbm, ⟨32, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S512x4096, .bf16⟩
  | .local _ .vmem, ⟨3, _⟩ => ⟨S512x4096, .bf16⟩
  | .local _ .vmem, ⟨4, _⟩ => ⟨S1x512, .f32⟩
  | .local _ .vmem, ⟨5, _⟩ => ⟨S1x512, .f32⟩
  | .local _ .vmem, ⟨6, _⟩ => ⟨S512x512, .f32⟩
  | .local _ .vmem, ⟨7, _⟩ => ⟨S512x512, .f32⟩
  | .local _ .vmem, ⟨8, _⟩ => ⟨S512x4096, .bf16⟩
  | .local _ .vmem, ⟨9, _⟩ => ⟨S512x1, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_c_1 : Ref sig .tc := ⟨.hbm, 9, rfl⟩
abbrev main_v4 : Ref sig .tc := ⟨.hbm, 10, rfl⟩
abbrev main_v5 : Ref sig .tc := ⟨.hbm, 11, rfl⟩
abbrev main_c_2 : Ref sig .tc := ⟨.hbm, 12, rfl⟩
abbrev main_v6 : Ref sig .tc := ⟨.hbm, 13, rfl⟩
abbrev main_v7 : Ref sig .tc := ⟨.hbm, 14, rfl⟩
abbrev main_c_3 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_4 : Ref sig .tc := ⟨.hbm, 19, rfl⟩
abbrev main_v11 : Ref sig .tc := ⟨.hbm, 20, rfl⟩
abbrev main_v12 : Ref sig .tc := ⟨.hbm, 21, rfl⟩
abbrev main_c_5 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S_S4096x2048 : S_.BroadcastsInDim S4096x2048 (![] : Fin 0 → Fin S4096x2048.rank)
  bcast_S4096x2048_S4096x2048x1_0_1 : S4096x2048.BroadcastsInDim S4096x2048x1 (![0, 1] : Fin 2 → Fin S4096x2048x1.rank)
  concatenates_S4096x2048x1_S4096x2048x1_S4096x2048x2_d2 : Shape.Concatenates [S4096x2048x1, S4096x2048x1] S4096x2048x2 2
  shapeCasts_S4096x2048x2_S4096x4096 : S4096x2048x2.ShapeCasts S4096x4096
  shapeCasts_S4096_S1x4096 : S4096.ShapeCasts S1x4096
  inb_S512x4096_S512x512_0_0 : ∀ a, (![0, 0] : Fin 2 → Nat) a + S512x512.size a ≤ S512x4096.size a
  h_S512x512 : 0 < S512x512.numel
  reduces_S512x512_S512 : S512x512.Reduces [1] S512
  shapeCasts_S512_S512x1 : S512.ShapeCasts S512x1
  inb_S512x4096_S512x512_0_512 : ∀ a, (![0, 512] : Fin 2 → Nat) a + S512x512.size a ≤ S512x4096.size a
  inb_S512x4096_S512x512_0_1024 : ∀ a, (![0, 1024] : Fin 2 → Nat) a + S512x512.size a ≤ S512x4096.size a
  inb_S512x4096_S512x512_0_1536 : ∀ a, (![0, 1536] : Fin 2 → Nat) a + S512x512.size a ≤ S512x4096.size a
  inb_S512x4096_S512x512_0_2048 : ∀ a, (![0, 2048] : Fin 2 → Nat) a + S512x512.size a ≤ S512x4096.size a
  inb_S512x4096_S512x512_0_2560 : ∀ a, (![0, 2560] : Fin 2 → Nat) a + S512x512.size a ≤ S512x4096.size a
  inb_S512x4096_S512x512_0_3072 : ∀ a, (![0, 3072] : Fin 2 → Nat) a + S512x512.size a ≤ S512x4096.size a
  inb_S512x4096_S512x512_0_3584 : ∀ a, (![0, 3584] : Fin 2 → Nat) a + S512x512.size a ≤ S512x4096.size a
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x512 : S512x1.Broadcasts S512x512
  bitsLt_bf16_f32 : FTy.bits .bf16 < FTy.bits .f32
  shapeCasts_S512x512_S512x512 : S512x512.ShapeCasts S512x512
  packedbf16_S512x4096_S512x512_0_0 : (Rect.unit (s := S512x4096) ![0, 0] S512x512.size inb_S512x4096_S512x512_0_0).PackedRows (EltTy.packing .bf16)
  packedbf16_S512x4096_S512x512_0_512 : (Rect.unit (s := S512x4096) ![0, 512] S512x512.size inb_S512x4096_S512x512_0_512).PackedRows (EltTy.packing .bf16)
  packedbf16_S512x4096_S512x512_0_1024 : (Rect.unit (s := S512x4096) ![0, 1024] S512x512.size inb_S512x4096_S512x512_0_1024).PackedRows (EltTy.packing .bf16)
  packedbf16_S512x4096_S512x512_0_1536 : (Rect.unit (s := S512x4096) ![0, 1536] S512x512.size inb_S512x4096_S512x512_0_1536).PackedRows (EltTy.packing .bf16)
  packedbf16_S512x4096_S512x512_0_2048 : (Rect.unit (s := S512x4096) ![0, 2048] S512x512.size inb_S512x4096_S512x512_0_2048).PackedRows (EltTy.packing .bf16)
  packedbf16_S512x4096_S512x512_0_2560 : (Rect.unit (s := S512x4096) ![0, 2560] S512x512.size inb_S512x4096_S512x512_0_2560).PackedRows (EltTy.packing .bf16)
  packedbf16_S512x4096_S512x512_0_3072 : (Rect.unit (s := S512x4096) ![0, 3072] S512x512.size inb_S512x4096_S512x512_0_3072).PackedRows (EltTy.packing .bf16)
  packedbf16_S512x4096_S512x512_0_3584 : (Rect.unit (s := S512x4096) ![0, 3584] S512x512.size inb_S512x4096_S512x512_0_3584).PackedRows (EltTy.packing .bf16)
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x512_S512x512_0_0 : ∀ a, (![0, 0] : Fin 2 → Nat) a + S512x512.size a ≤ S512x512.size a
  dot_S512x4096_S512x4096_S512x512_1_1_0_0_n_n_wf : DotDims.WF S512x4096 S512x4096 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .bf16 = 32 ∨ (Rect.block (s := S4096x4096) S512x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x4096.size a
  hwx0_2 : ∀ i : grid0.Coords, EltTy.bits .f32 = 32 ∨ (Rect.block (s := S1x4096) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S8192x4096.size a
  hwx0_3 : ∀ i : grid0.Coords, EltTy.bits .f32 = 32 ∨ (Rect.block (s := S8192x4096) S512x512.size (cc0_transform_3 i) (hinb0_3 i)).WholeWords (EltTy.packing .f32)

variable [Facts₀]

def dot_S512x4096_S512x4096_S512x512_1_1_0_0_n_n : DotDims S512x4096 S512x4096 S512x512 where
  lhsContracting := [1]
  rhsContracting := [1]
  lhsNonContracting := [0]
  rhsNonContracting := [0]
  lhsBatch := []
  rhsBatch := []
  wf := dot_S512x4096_S512x4096_S512x512_1_1_0_0_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v22) S512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x2048 : Shape := ⟨2, ![4096, 2048]⟩
abbrev S4096 : Shape := ⟨1, ![4096]⟩
abbrev S_ : Shape := ⟨0, ![]⟩
abbrev S8192 : Shape := ⟨1, ![8192]⟩
abbrev S8192x1 : Shape := ⟨2, ![8192, 1]⟩
abbrev S4096x2048x1 : Shape := ⟨3, ![4096, 2048, 1]⟩
abbrev S4096x2048x2 : Shape := ⟨3, ![4096, 2048, 2]⟩
abbrev S4096x4096 : Shape := ⟨2, ![4096, 4096]⟩
abbrev S1x4096 : Shape := ⟨2, ![1, 4096]⟩

abbrev nBuf : Space → Nat
  | .hbm => 59
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x2048, .i32⟩
  | .hbm, ⟨2, _⟩ => ⟨S4096, .f32⟩
  | .hbm, ⟨3, _⟩ => ⟨S8192x4096, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x4096, .f32⟩
  | .hbm, ⟨14, _⟩ => ⟨S8192x4096, .f32⟩
  | .hbm, ⟨15, _⟩ => ⟨S8192x4096, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8192x4096, .f32⟩
  | .hbm, ⟨20, _⟩ => ⟨S8192x4096, .f32⟩
  | .hbm, ⟨21, _⟩ => ⟨S_, .f32⟩
  | .hbm, ⟨22, _⟩ => ⟨S8192x4096, .f32⟩
  | .hbm, ⟨23, _⟩ => ⟨S8192x4096, .f32⟩
  | .hbm, ⟨24, _⟩ => ⟨S_, .i32⟩
  | .hbm, ⟨25, _⟩ => ⟨S4096x2048, .i32⟩
  | .hbm, ⟨26, _⟩ => ⟨S4096x2048, .i32⟩
  | .hbm, ⟨27, _⟩ => ⟨S_, .i32⟩
  | .hbm, ⟨28, _⟩ => ⟨S4096x2048, .i32⟩
  | .hbm, ⟨29, _⟩ => ⟨S4096x2048, .i32⟩
  | .hbm, ⟨30, _⟩ => ⟨S_, .i32⟩
  | .hbm, ⟨31, _⟩ => ⟨S4096x2048, .i32⟩
  | .hbm, ⟨32, _⟩ => ⟨S4096x2048, .i32⟩
  | .hbm, ⟨33, _⟩ => ⟨S_, .i32⟩
  | .hbm, ⟨34, _⟩ => ⟨S4096x2048, .i32⟩
  | .hbm, ⟨35, _⟩ => ⟨S4096x2048, .i1⟩
  | .hbm, ⟨36, _⟩ => ⟨S_, .i32⟩
  | .hbm, ⟨37, _⟩ => ⟨S4096x2048, .i32⟩
  | .hbm, ⟨38, _⟩ => ⟨S4096x2048, .i32⟩
  | .hbm, ⟨39, _⟩ => ⟨S4096x2048, .i32⟩
  | .hbm, ⟨40, _⟩ => ⟨S_, .i32⟩
  | .hbm, ⟨41, _⟩ => ⟨S4096x2048, .i32⟩
  | .hbm, ⟨42, _⟩ => ⟨S4096x2048, .i1⟩
  | .hbm, ⟨43, _⟩ => ⟨S_, .i32⟩
  | .hbm, ⟨44, _⟩ => ⟨S4096x2048, .i32⟩
  | .hbm, ⟨45, _⟩ => ⟨S4096x2048, .i32⟩
  | .hbm, ⟨46, _⟩ => ⟨S4096x2048, .i32⟩
  | .hbm, ⟨47, _⟩ => ⟨S4096x2048x1, .i32⟩
  | .hbm, ⟨48, _⟩ => ⟨S4096x2048x1, .i32⟩
  | .hbm, ⟨49, _⟩ => ⟨S4096x2048x2, .i32⟩
  | .hbm, ⟨50, _⟩ => ⟨S4096x4096, .i32⟩
  | .hbm, ⟨51, _⟩ => ⟨S4096x4096, .f32⟩
  | .hbm, ⟨52, _⟩ => ⟨S4096x4096, .f32⟩
  | .hbm, ⟨53, _⟩ => ⟨S8192x4096, .f32⟩
  | .hbm, ⟨54, _⟩ => ⟨S1x4096, .f32⟩
  | .hbm, ⟨55, _⟩ => ⟨S8192x4096, .f32⟩
  | .hbm, ⟨56, _⟩ => ⟨S8192x4096, .f32⟩
  | .hbm, ⟨57, _⟩ => ⟨S8192x4096, .f32⟩
  | .hbm, ⟨58, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_cst_3 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_v10 : Ref sig .tc := ⟨.hbm, 23, rfl⟩
abbrev main_c : Ref sig .tc := ⟨.hbm, 24, rfl⟩
abbrev main_v11 : Ref sig .tc := ⟨.hbm, 25, rfl⟩
abbrev main_v12 : Ref sig .tc := ⟨.hbm, 26, rfl⟩
abbrev main_c_4 : Ref sig .tc := ⟨.hbm, 27, rfl⟩
abbrev main_v13 : Ref sig .tc := ⟨.hbm, 28, rfl⟩
abbrev main_v14 : Ref sig .tc := ⟨.hbm, 29, rfl⟩
abbrev main_c_5 : Ref sig .tc := ⟨.hbm, 30, rfl⟩
abbrev main_v15 : Ref sig .tc := ⟨.hbm, 31, rfl⟩
abbrev main_v16 : Ref sig .tc := ⟨.hbm, 32, rfl⟩
abbrev main_c_6 : Ref sig .tc := ⟨.hbm, 33, rfl⟩
abbrev main_v17 : Ref sig .tc := ⟨.hbm, 34, rfl⟩
abbrev main_v18 : Ref sig .tc := ⟨.hbm, 35, rfl⟩
abbrev main_c_7 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_8 : Ref sig .tc := ⟨.hbm, 40, rfl⟩
abbrev main_v22 : Ref sig .tc := ⟨.hbm, 41, rfl⟩
abbrev main_v23 : Ref sig .tc := ⟨.hbm, 42, rfl⟩
abbrev main_c_9 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩

abbrev nD : Nat := 1
abbrev τ : Topo := Topo.v7x

variable {F : FTy → Type} [FloatOps F]

class Facts₀ : Prop where
  reducesTo_S8192x4096_S8192_d1 : S8192x4096.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x4096_0_1 : S8192x1.BroadcastsInDim S8192x4096 (![0, 1] : Fin 2 → Fin S8192x4096.rank)
  bcast_S_S8192x4096 : S_.BroadcastsInDim S8192x4096 (![] : Fin 0 → Fin S8192x4096.rank)
  bcast_S_S4096x2048 : S_.BroadcastsInDim S4096x2048 (![] : Fin 0 → Fin S4096x2048.rank)
  bcast_S4096x2048_S4096x2048x1_0_1 : S4096x2048.BroadcastsInDim S4096x2048x1 (![0, 1] : Fin 2 → Fin S4096x2048x1.rank)
  concatenates_S4096x2048x1_S4096x2048x1_S4096x2048x2_d2 : Shape.Concatenates [S4096x2048x1, S4096x2048x1] S4096x2048x2 2
  shapeCasts_S4096x2048x2_S4096x4096 : S4096x2048x2.ShapeCasts S4096x4096
  transposes_S4096x4096_S4096x4096_1_0 : S4096x4096.Transposes [1, 0] S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.Pieces.lean ====
/-
  What the two cases of the kernel body leave behind, in terms of the blocks the point is given.

  The body sees a block `x` of 512 rows of the activations (512 × 4096), a block of 512 weight rows, a block of 512
  weight scales, and two scratch buffers that survive from one grid point to the next. At the first column tile of a
  row tile it computes, from `x` alone, the 512 row scales (`scaleBlk x`) and the 512 × 4096 quantised activations
  (`quantBlk x`, written in eight stretches of 512 columns), and stores both in the scratch buffers; at every column
  tile it multiplies the quantised activations in the scratch by the weight block and rescales.
-/
import proofs.«412723_j1176821039709_2_alg».proof.Proof.Gen.KernelIdeal.Frame
import Idealize.ShloMosaic.Lib.Pipeline.Value

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

/-- Stretch `j` of a block of 512 rows: its columns `512 j … 512 j + 511`. -/
abbrev cols0 (x : Vec F S512x4096 .f32) : Vec F S512x512 .f32 := View.ld x (Rect.unit (s := S512x4096) ![0, 0] S512x512.size inb_S512x4096_S512x512_0_0)
abbrev cols1 (x : Vec F S512x4096 .f32) : Vec F S512x512 .f32 := View.ld x (Rect.unit (s := S512x4096) ![0, 512] S512x512.size inb_S512x4096_S512x512_0_512)
abbrev cols2 (x : Vec F S512x4096 .f32) : Vec F S512x512 .f32 := View.ld x (Rect.unit (s := S512x4096) ![0, 1024] S512x512.size inb_S512x4096_S512x512_0_1024)
abbrev cols3 (x : Vec F S512x4096 .f32) : Vec F S512x512 .f32 := View.ld x (Rect.unit (s := S512x4096) ![0, 1536] S512x512.size inb_S512x4096_S512x512_0_1536)
abbrev cols4 (x : Vec F S512x4096 .f32) : Vec F S512x512 .f32 := View.ld x (Rect.unit (s := S512x4096) ![0, 2048] S512x512.size inb_S512x4096_S512x512_0_2048)
abbrev cols5 (x : Vec F S512x4096 .f32) : Vec F S512x512 .f32 := View.ld x (Rect.unit (s := S512x4096) ![0, 2560] S512x512.size inb_S512x4096_S512x512_0_2560)
abbrev cols6 (x : Vec F S512x4096 .f32) : Vec F S512x512 .f32 := View.ld x (Rect.unit (s := S512x4096) ![0, 3072] S512x512.size inb_S512x4096_S512x512_0_3072)
abbrev cols7 (x : Vec F S512x4096 .f32) : Vec F S512x512 .f32 := View.ld x (Rect.unit (s := S512x4096) ![0, 3584] S512x512.size inb_S512x4096_S512x512_0_3584)

/-- The 512 row scales of a block: the largest magnitude of each row, taken stretch by stretch, over seven, and at
    least the least scale. -/
def scaleBlk (x : Vec F S512x4096 .f32) : FVec F S512x1 .f32 :=
  k0_pay6 (k0_pay5 (cols0 x) (cols1 x) (cols2 x) (cols3 x) (cols4 x) (cols5 x) (cols6 x)) (cols7 x)

/-- The quantised block: each stretch of columns quantised at its rows' scales, the eight stretches side by side. -/
def quantBlk (x : Vec F S512x4096 .f32) : Vec F S512x4096 .bf16 :=
  View.canon [
    (⟨(Rect.unit (s := S512x4096) ![0, 3584] S512x512.size inb_S512x4096_S512x512_0_3584), k0_pay2 (scaleBlk x) (cols7 x)⟩ : View.Piece (Elt F) S512x4096 .bf16),
    (⟨(Rect.unit (s := S512x4096) ![0, 3072] S512x512.size inb_S512x4096_S512x512_0_3072), k0_pay2 (scaleBlk x) (cols6 x)⟩ : View.Piece (Elt F) S512x4096 .bf16),
    (⟨(Rect.unit (s := S512x4096) ![0, 2560] S512x512.size inb_S512x4096_S512x512_0_2560), k0_pay2 (scaleBlk x) (cols5 x)⟩ : View.Piece (Elt F) S512x4096 .bf16),
    (⟨(Rect.unit (s := S512x4096) ![0, 2048] S512x512.size inb_S512x4096_S512x512_0_2048), k0_pay2 (scaleBlk x) (cols4 x)⟩ : View.Piece (Elt F) S512x4096 .bf16),
    (⟨(Rect.unit (s := S512x4096) ![0, 1536] S512x512.size inb_S512x4096_S512x512_0_1536), k0_pay2 (scaleBlk x) (cols3 x)⟩ : View.Piece (Elt F) S512x4096 .bf16),
    (⟨(Rect.unit (s := S512x4096) ![0, 1024] S512x512.size inb_S512x4096_S512x512_0_1024), k0_pay2 (scaleBlk x) (cols2 x)⟩ : View.Piece (Elt F) S512x4096 .bf16),
    (⟨(Rect.unit (s := S512x4096) ![0, 512] S512x512.size inb_S512x4096_S512x512_0_512), k0_pay2 (scaleBlk x) (cols1 x)⟩ : View.Piece (Elt F) S512x4096 .bf16),
    (⟨(Rect.unit (s := S512x4096) ![0, 0] S512x512.size inb_S512x4096_S512x512_0_0), k0_pay2 (scaleBlk x) (cols0 x)⟩ : View.Piece (Elt F) S512x4096 .bf16)]

/-- A rank-2 offset of zeros, however it is spelt. -/
theorem off_zero : (![0, 0] : Fin 2 → Nat) = fun _ => 0 := funext fun a => by fin_cases a <;> rfl

/-! The eight stretches are quantised by the same operations: each stored piece is the quantisation of a stretch at the
    block's scales, and the stored scales are the block's scales. -/
section SameQuantisation
variable (s : FVec F S512x1 .f32) (a : FVec F S512x1 .f32) (b v : Vec F S512x512 .f32)
theorem quant3 : k0_pay3 s v = k0_pay2 s v := rfl
theorem quant1 : k0_pay1 (k0_pay14 s v) (FloatOps.ofBits .f32 0xC1000000#32) = k0_pay2 s v := rfl
theorem quant13 : k0_pay13 s v = k0_pay2 s v := rfl
theorem quant12 : k0_pay12 s v = k0_pay2 s v := rfl
theorem quant11 : k0_pay11 v (k0_pay10 a b) = k0_pay2 (k0_pay6 a b) v := rfl
theorem quant9 : k0_pay9 a b v = k0_pay2 (k0_pay6 a b) v := rfl
theorem quant8 : k0_pay8 a b v = k0_pay2 (k0_pay6 a b) v := rfl
/-- The scale is stored through a cast to its own shape. -/
theorem scale7 : k0_pay7 a b = k0_pay6 a b := shapeCast_self _ _
end SameQuantisation

/-- At a row tile's first column tile the scale scratch is left at the block's row scales. -/
theorem scaleScratch_first (c : Dev nD) (i : grid0.Coords) (arg2 : Memref sig .tc .vmem S512x4096 .f32) (harg2 : arg2.IsWhole) (arg3 : Memref sig .tc .vmem S512x4096 .bf16) (harg3 : arg3.IsWhole) (arg4 : Memref sig .tc .vmem S1x512 .f32) (harg4 : arg4.IsWhole) (arg5 : Memref sig .tc .vmem S512x512 .f32) (harg5 : arg5.IsWhole) (arg6 : Memref sig .tc .vmem S512x4096 .bf16) (harg6 : arg6.IsWhole) (arg7 : Memref sig .tc .vmem S512x1 .f32) (harg7 : arg7.IsWhole) (hc0 : cond0_0 i)
    (x0 : Vec F S512x4096 .f32) (x1 : Vec F S512x4096 .bf16) (x2 : Vec F S1x512 .f32) :
    sout0_A_1 c i arg2 harg2 arg3 harg3 arg4 harg4 arg5 harg5 arg6 harg6 arg7 harg7 hc0 x0 x1 x2 = scaleBlk x0 := by
  unfold sout0_A_1
  rw [View.read_writes_eq_canon _ _ _ (scover0_A_1 c i arg2 harg2 arg3 harg3 arg4 harg4 arg5 harg5 arg6 harg6 arg7 harg7 hc0 x0 x1 x2)]
  unfold kernelRun0_A
  dsimp only
  sl_unfold_words
  rw [View.canon_unit_zero off_zero]
  simp only [View.readAt_eq_ld, harg2.read_unread, scale7]
  rfl

/-- At a row tile's first column tile the activation scratch is left at the quantised block. -/
theorem quantScratch_first (c : Dev nD) (i : grid0.Coords) (arg2 : Memref sig .tc .vmem S512x4096 .f32) (harg2 : arg2.IsWhole) (arg3 : Memref sig .tc .vmem S512x4096 .bf16) (harg3 : arg3.IsWhole) (arg4 : Memref sig .tc .vmem S1x512 .f32) (harg4 : arg4.IsWhole) (arg5 : Memref sig .tc .vmem S512x512 .f32) (harg5 : arg5.IsWhole) (arg6 : Memref sig .tc .vmem S512x4096 .bf16) (harg6 : arg6.IsWhole) (arg7 : Memref sig .tc .vmem S512x1 .f32) (harg7 : arg7.IsWhole) (hc0 : cond0_0 i)
    (x0 : Vec F S512x4096 .f32) (x1 : Vec F S512x4096 .bf16) (x2 : Vec F S1x512 .f32) :
    sout0_A_0 c i arg2 harg2 arg3 harg3 arg4 harg4 arg5 harg5 arg6 harg6 arg7 harg7 hc0 x0 x1 x2 = quantBlk x0 := by
  unfold sout0_A_0
  rw [View.read_writes_eq_canon _ _ _ (scover0_A_0 c i arg2 harg2 arg3 harg3 arg4 harg4 arg5 harg5 arg6 harg6 arg7 harg7 hc0 x0 x1 x2)]
  unfold kernelRun0_A
  dsimp only
  sl_unfold_words
  simp only [View.readAt_eq_ld, harg2.read_unread, quant3, quant1, quant13, quant12, quant11, quant9, quant8]
  rfl

/-- At a row tile's first column tile the output block is the rescaled product of what was just stored. -/
theorem out_first (c : Dev nD) (i : grid0.Coords) (arg2 : Memref sig .tc .vmem S512x4096 .f32) (harg2 : arg2.IsWhole) (arg3 : Memref sig .tc .vmem S512x4096 .bf16) (harg3 : arg3.IsWhole) (arg4 : Memref sig .tc .vmem S1x512 .f32) (harg4 : arg4.IsWhole) (arg5 : Memref sig .tc .vmem S512x512 .f32) (harg5 : arg5.IsWhole) (arg6 : Memref sig .tc .vmem S512x4096 .bf16) (harg6 : arg6.IsWhole) (arg7 : Memref sig .tc .vmem S512x1 .f32) (harg7 : arg7.IsWhole) (hc0 : cond0_0 i)
    (x0 : Vec F S512x4096 .f32) (x1 : Vec F S512x4096 .bf16) (x2 : Vec F S1x512 .f32) :
    out0_A_3 c i arg2 harg2 arg3 harg3 arg4 harg4 arg5 harg5 arg6 harg6 arg7 harg7 hc0 x0 x1 x2 = k0_pay4 (quantBlk x0) (scaleBlk x0) x1 x2 := by
  unfold out0_A_3
  rw [View.read_writes_eq_canon _ _ _ (cover0_A_3 c i arg2 harg2 arg3 harg3 arg4 harg4 arg5 harg5 arg6 harg6 arg7 harg7 hc0 x0 x1 x2)]
  unfold kernelRun0_A
  dsimp only
  sl_unfold_words
  rw [View.canon_unit_zero off_zero]
  simp only [View.readCov_eq_canon', View.readAt_eq_ld, harg2.read_unread, harg3.read_unread, harg4.read_unread,
    quant3, quant1, quant13, quant12, quant11, quant9, quant8, scale7]
  show k0_pay4 (View.ld (quantBlk x0) (Rect.unit (s := S512x4096) ![0, 0] S512x4096.size inb_S512x4096_S512x4096_0_0))
      (View.ld (View.canon [(⟨Rect.unit (s := S512x1) ![0, 0] S512x1.size inb_S512x1_S512x1_0_0, scaleBlk x0⟩ : View.Piece (Elt F) S512x1 .f32)])
        (Rect.unit (s := S512x1) ![0, 0] S512x1.size inb_S512x1_S512x1_0_0))
      (View.ld x1 (Rect.unit (s := S512x4096) ![0, 0] S512x4096.size inb_S512x4096_S512x4096_0_0))
      (View.ld x2 (Rect.unit (s := S1x512) ![0, 0] S1x512.size inb_S1x512_S1x512_0_0)) = _
  rw [View.canon_unit_zero off_zero]
  simp only [View.ld_unit_zero (S := S512x4096) off_zero, View.ld_unit_zero (S := S512x1) off_zero,
    View.ld_unit_zero (S := S1x512) off_zero]

/-- At any later column tile the output block is the rescaled product of what the scratch buffers held. -/
theorem out_later (c : Dev nD) (i : grid0.Coords) (arg2 : Memref sig .tc .vmem S512x4096 .f32) (harg2 : arg2.IsWhole) (arg3 : Memref sig .tc .vmem S512x4096 .bf16) (harg3 : arg3.IsWhole) (arg4 : Memref sig .tc .vmem S1x512 .f32) (harg4 : arg4.IsWhole) (arg5 : Memref sig .tc .vmem S512x512 .f32) (harg5 : arg5.IsWhole) (arg6 : Memref sig .tc .vmem S512x4096 .bf16) (harg6 : arg6.IsWhole) (arg7 : Memref sig .tc .vmem S512x1 .f32) (harg7 : arg7.IsWhole) (hc0 : ¬cond0_0 i)
    (x0 : Vec F S512x4096 .f32) (x1 : Vec F S512x4096 .bf16) (x2 : Vec F S1x512 .f32)
    (xs0 : Vec F S512x4096 .bf16) (xs1 : Vec F S512x1 .f32) :
    out0_B_3 c i arg2 harg2 arg3 harg3 arg4 harg4 arg5 harg5 arg6 harg6 arg7 harg7 hc0 x0 x1 x2 xs0 xs1 = k0_pay4 xs0 xs1 x1 x2 := by
  unfold out0_B_3
  rw [View.read_writes_eq_canon _ _ _ (cover0_B_3 c i arg2 harg2 arg3 harg3 arg4 harg4 arg5 harg5 arg6 harg6 arg7 harg7 hc0 x0 x1 x2 xs0 xs1)]
  unfold kernelRun0_B
  dsimp only
  sl_unfold_words
  rw [View.canon_unit_zero off_zero]
  simp only [View.readAt_eq_ld, harg6.read_unread, harg7.read_unread, harg3.read_unread, harg4.read_unread,
    View.ld_unit_zero (S := S512x4096) off_zero, View.ld_unit_zero (S := S512x1) off_zero,
    View.ld_unit_zero (S := S1x512) off_zero]

end Cert.KernelIdeal.Pieces

end
-- ==== Proof.RowQuant.lean ====
/-
  Row-wise int4 quantisation of activations followed by a product with an integer weight matrix, as ONE function of
  the argument arrays over the extended reals.

  For a row `x : Fin n → EReal` the SCALE is `s = max (‖x‖∞ / 7) ε`, where `‖x‖∞` is the largest magnitude of the
  row's entries and `ε` the float literal nearest `1e-5`; an entry is QUANTISED to
  `q = min 7 (max (-8) (round-half-even (x / s)))`; and the result at row `r`, column `c` is
  `(∑ k, q r k · W c k) · (s r · w c)` for a weight matrix `W` and a per-column weight scale `w`.

  Two facts about this function are proved here, both over abstract index types:
  * the largest magnitude of a row of 4096 entries, taken in eight consecutive stretches of 512 and folded from `0`
    by `max`, is the largest magnitude of the whole row (magnitudes are non-negative, so starting the fold at `0`
    instead of at `-∞` changes nothing);
  * the two scale factors may be applied one after the other or as their product: multiplication on the extended
    reals is associative, infinities included, so no finiteness is needed.
-/
import Idealize.ShloMosaic.PureOps.Ideal
import Idealize.ShloMosaic.PureOps.Ideal.Laws

noncomputable section

namespace Cert.RowQuant

open Idealize.ShloMosaic

/-- The float literal `7.0`. -/
abbrev seven : EReal := Ideal.ofBits .f32 0x40E00000#32
/-- The float literal `-8.0`. -/
abbrev negEight : EReal := Ideal.ofBits .f32 0xC1000000#32
/-- The float literal nearest `1e-5`: the least scale a row may have. -/
abbrev leastScale : EReal := Ideal.ofBits .f32 0x3727C5AC#32
/-- The float pattern of `-∞`, from which a maximum is folded. -/
abbrev negInf : EReal := Ideal.ofBits .f32 0xFF800000#32

/-- The pattern of `-∞` denotes the least extended real. -/
theorem negInf_eq_bot : negInf = ⊥ := by
  simp [negInf, Ideal.ofBits, Ideal.ieee]

/-- The magnitude of an extended real. -/
def mag (x : EReal) : EReal := max x (-x)

/-- A magnitude is non-negative. -/
theorem mag_nonneg (x : EReal) : 0 ≤ mag x := by
  unfold mag
  rcases le_total 0 x with h | h
  · exact le_max_of_le_left h
  · exact le_max_of_le_right (by simpa using EReal.neg_le_neg_iff.mpr h)

/-- The largest magnitude among the entries of a row. -/
def absMax {n : ℕ} (row : Fin n → EReal) : EReal := Finset.univ.sup fun k => mag (row k)

/-- A maximum folded from `-∞` over all the entries of a row is their supremum. -/
theorem fold_max_negInf {n : ℕ} (g : Fin n → EReal) :
    (Finset.univ : Finset (Fin n)).fold max negInf g = Finset.univ.sup g := by
  rw [negInf_eq_bot]; rfl

/-- The scale of a row: a seventh of its largest magnitude, and at least `leastScale`. -/
def scale {n : ℕ} (row : Fin n → EReal) : EReal := max (Ideal.div (absMax row) seven) leastScale

/-- An entry quantised at scale `s`: the quotient rounded to the nearest integer, ties to even, clipped to `[-8, 7]`. -/
def quant (s x : EReal) : EReal := min seven (max negEight (Ideal.liftRound Ideal.roundHalfEven (Ideal.div x s)))

/-- The result: the quantised row times the weight row, rescaled by the row's scale and the column's weight scale. -/
def result {M K N : ℕ} (X : Fin M → Fin K → EReal) (W : Fin N → Fin K → EReal) (w : Fin N → EReal)
    (r : Fin M) (c : Fin N) : EReal :=
  (∑ k, quant (scale (X r)) (X r k) * W c k) * (scale (X r) * w c)

/-- The same result with the two scale factors applied one after the other. -/
theorem result_eq_mul_mul {M K N : ℕ} (X : Fin M → Fin K → EReal) (W : Fin N → Fin K → EReal) (w : Fin N → EReal)
    (r : Fin M) (c : Fin N) :
    (∑ k, quant (scale (X r)) (X r k) * W c k) * scale (X r) * w c = result X W w r c := by
  unfold result; exact mul_assoc _ _ _

/-- Each of eight terms is below their maximum folded from `0`. -/
theorem le_fold_max_eight (g : Fin 8 → EReal) (j : Fin 8) :
    g j ≤ max (max (max (max (max (max (max (max 0 (g 0)) (g 1)) (g 2)) (g 3)) (g 4)) (g 5)) (g 6)) (g 7) := by
  fin_cases j <;> simp [le_max_iff]

/-- Stretch `j` of a row of `8 * 512` entries. -/
def stretch (f : Fin 4096 → EReal) (j : Fin 8) : Fin 512 → EReal := fun k => f ⟨512 * j.val + k.val, by omega⟩

/-- The supremum of a row of 4096 non-negative entries is the maximum, folded from `0`, of the suprema of its eight
    stretches of 512. -/
theorem sup_eq_fold_stretches (f : Fin 4096 → EReal) (hf : ∀ k, 0 ≤ f k) :
    Finset.univ.sup f
      = max (max (max (max (max (max (max (max 0 (Finset.univ.sup (stretch f 0))) (Finset.univ.sup (stretch f 1)))
          (Finset.univ.sup (stretch f 2))) (Finset.univ.sup (stretch f 3))) (Finset.univ.sup (stretch f 4)))
          (Finset.univ.sup (stretch f 5))) (Finset.univ.sup (stretch f 6))) (Finset.univ.sup (stretch f 7)) := by
  have hst : ∀ j : Fin 8, Finset.univ.sup (stretch f j) ≤ Finset.univ.sup f := fun j =>
    Finset.sup_le fun k _ => Finset.le_sup (f := f) (Finset.mem_univ _)
  have h0 : (0 : EReal) ≤ Finset.univ.sup f := (hf 0).trans (Finset.le_sup (f := f) (Finset.mem_univ 0))
  apply le_antisymm
  · refine Finset.sup_le fun k _ => ?_
    have hk : f k = stretch f ⟨k.val / 512, by omega⟩ ⟨k.val % 512, Nat.mod_lt _ (by norm_num)⟩ := by
      unfold stretch; congr 1; apply Fin.ext; show k.val = 512 * (k.val / 512) + k.val % 512; omega
    have hle : f k ≤ Finset.univ.sup (stretch f ⟨k.val / 512, by omega⟩) := by
      rw [hk]; exact Finset.le_sup (f := stretch f _) (Finset.mem_univ _)
    exact hle.trans (le_fold_max_eight (fun j => Finset.univ.sup (stretch f j)) ⟨k.val / 512, by omega⟩)
  · simp only [max_le_iff]
    exact ⟨⟨⟨⟨⟨⟨⟨⟨h0, hst 0⟩, hst 1⟩, hst 2⟩, hst 3⟩, hst 4⟩, hst 5⟩, hst 6⟩, hst 7⟩

end Cert.RowQuant

end
-- ==== Proof.BlockValues.lean ====
/-
  The block payloads of the kernel body read at an index, over the extended reals: the row scales of a block are the
  scales of its rows, the quantised block is each entry quantised at its row's scale, and the output block is the
  product of the quantised rows with the weight rows, times the row's scale, times the column's weight scale.
-/
import proofs.«412723_j1176821039709_2_alg».proof.Proof.Pieces
import proofs.«412723_j1176821039709_2_alg».proof.Proof.RowQuant
import Idealize.ShloMosaic.Lib.ValueIdx
import Idealize.ShloMosaic.Lib.ValueLayout
import Idealize.ShloMosaic.PureOps.Ideal.Laws

set_option maxRecDepth 16384

noncomputable section

namespace Cert.KernelIdeal.BlockValues

open Cert.KernelIdeal Cert.KernelIdeal.Gen Cert.KernelIdeal.Pieces Idealize.ShloMosaic Idealize.ShloMosaic.ValueIdx

/-- A block's stretch of 512 columns from column `o`, read at `(r, k)`, is the block at `(r, o + k)`. -/
theorem ld_cols_apply (x : Vec Ideal S512x4096 .f32) (o : Nat)
    (inb : ∀ a, (![0, o] : Fin 2 → Nat) a + S512x512.size a ≤ S512x4096.size a) (r k : Fin 512) (h : o + k.val < 4096) :
    View.ld x (Rect.unit (s := S512x4096) ![0, o] S512x512.size inb) (ix2 r k) = x (ix2 r (⟨o + k.val, h⟩ : Fin 4096)) := by
  show x _ = x _
  congr 1
  funext a; apply Fin.ext
  match a with
  | ⟨0, _⟩ => show 0 + 1 * r.val = r.val; omega
  | ⟨1, _⟩ => show o + 1 * k.val = o + k.val; omega

/-- The largest magnitude of row `r` of a 512 × 512 stretch, as the body takes it — the lane maximum of the magnitudes,
    folded from `-∞` and kept as a column — is the supremum of the row's magnitudes. -/
theorem rowAbsMax_apply (v : Vec Ideal S512x512 .f32) (r : Fin 512) :
    shapeCast S512x1 (multiReduction (F := Ideal) .maximumf [1] S512 (absf v) 0xFF800000#32 reduces_S512x512_S512 (.inl rfl) rfl)
        shapeCasts_S512_S512x1 (ix2 r (0 : Fin 1))
      = Finset.univ.sup fun k : Fin 512 => Cert.RowQuant.mag (v (ix2 r k)) := by
  rw [shapeCast_apply _ shapeCasts_S512_S512x1 (ix2 r (0 : Fin 1)) (ix1 r)
    (by rw [Shape.rowMajor_val_one, Shape.rowMajor_val_two]; show r.val = r.val * 1 + 0; omega)]
  refine (Ideal.multiReduction_maximumf_single (φ := .f32) (absf v) 0xFF800000#32 reduces_S512x512_S512 (.inl rfl) rfl (ix1 r)).trans ?_
  refine (Cert.RowQuant.fold_max_negInf (n := 512) _).trans ?_
  refine congrArg (Finset.univ.sup) (funext fun k => ?_)
  have e : reduces_S512x512_S512.lift (ix1 r) k = ix2 r k := funext fun a => Fin.ext (by
    match a with
    | ⟨0, _⟩ => rfl
    | ⟨1, _⟩ => rfl)
  exact congrArg (fun i => max (v i) (-(v i))) e

/-- The scale stored for row `r` of a block is the scale of that row. -/
theorem scaleBlk_apply (x : Vec Ideal S512x4096 .f32) (r : Fin 512) :
    scaleBlk (F := Ideal) x (ix2 r (0 : Fin 1)) = Cert.RowQuant.scale (fun k : Fin 4096 => x (ix2 r k)) := by
  unfold scaleBlk k0_pay6 k0_pay5
  simp only [maximumf_apply, divf_apply, broadcast_apply]
  rw [rowAbsMax_apply (cols0 x) r, rowAbsMax_apply (cols1 x) r, rowAbsMax_apply (cols2 x) r, rowAbsMax_apply (cols3 x) r,
    rowAbsMax_apply (cols4 x) r, rowAbsMax_apply (cols5 x) r, rowAbsMax_apply (cols6 x) r, rowAbsMax_apply (cols7 x) r]
  -- the magnitudes of row `r`, and its eight stretches as the body reads them
  let f : Fin 4096 → EReal := fun k => Cert.RowQuant.mag (x (ix2 r k))
  have h0 : (fun k : Fin 512 => Cert.RowQuant.mag (cols0 x (ix2 r k))) = Cert.RowQuant.stretch f 0 :=
    funext fun k => congrArg Cert.RowQuant.mag (ld_cols_apply x 0 _ r k (by omega))
  have h1 : (fun k : Fin 512 => Cert.RowQuant.mag (cols1 x (ix2 r k))) = Cert.RowQuant.stretch f 1 :=
    funext fun k => congrArg Cert.RowQuant.mag (ld_cols_apply x 512 _ r k (by omega))
  have h2 : (fun k : Fin 512 => Cert.RowQuant.mag (cols2 x (ix2 r k))) = Cert.RowQuant.stretch f 2 :=
    funext fun k => congrArg Cert.RowQuant.mag (ld_cols_apply x 1024 _ r k (by omega))
  have h3 : (fun k : Fin 512 => Cert.RowQuant.mag (cols3 x (ix2 r k))) = Cert.RowQuant.stretch f 3 :=
    funext fun k => congrArg Cert.RowQuant.mag (ld_cols_apply x 1536 _ r k (by omega))
  have h4 : (fun k : Fin 512 => Cert.RowQuant.mag (cols4 x (ix2 r k))) = Cert.RowQuant.stretch f 4 :=
    funext fun k => congrArg Cert.RowQuant.mag (ld_cols_apply x 2048 _ r k (by omega))
  have h5 : (fun k : Fin 512 => Cert.RowQuant.mag (cols5 x (ix2 r k))) = Cert.RowQuant.stretch f 5 :=
    funext fun k => congrArg Cert.RowQuant.mag (ld_cols_apply x 2560 _ r k (by omega))
  have h6 : (fun k : Fin 512 => Cert.RowQuant.mag (cols6 x (ix2 r k))) = Cert.RowQuant.stretch f 6 :=
    funext fun k => congrArg Cert.RowQuant.mag (ld_cols_apply x 3072 _ r k (by omega))
  have h7 : (fun k : Fin 512 => Cert.RowQuant.mag (cols7 x (ix2 r k))) = Cert.RowQuant.stretch f 7 :=
    funext fun k => congrArg Cert.RowQuant.mag (ld_cols_apply x 3584 _ r k (by omega))
  rw [h0, h1, h2, h3, h4, h5, h6, h7]
  show max (Ideal.div _ Cert.RowQuant.seven) Cert.RowQuant.leastScale = max (Ideal.div (Finset.univ.sup f) Cert.RowQuant.seven) Cert.RowQuant.leastScale
  rw [Cert.RowQuant.sup_eq_fold_stretches f (fun k => Cert.RowQuant.mag_nonneg _)]
  show max (Ideal.div (max (max (max (max (max (max (max (max (Ideal.ofBits .f32 0x00000000#32) _) _) _) _) _) _) _) _) _) _ = _
  rw [Ideal.ofBits_zero_f32]

/-- Entry `(a, b)` of a stretch quantised at the stored scales: the entry over its row's scale, rounded to the nearest
    integer, ties to even, and clipped to `[-8, 7]` (the format change after it is the identity on extended reals). -/
theorem quantStretch_apply (s : FVec Ideal S512x1 .f32) (c : Vec Ideal S512x512 .f32) (a b : Fin 512) :
    k0_pay2 (F := Ideal) s c (ix2 a b) = Cert.RowQuant.quant (s (ix2 a (0 : Fin 1))) (c (ix2 a b)) := by
  unfold k0_pay2
  simp only [shapeCast_self]
  show min (Ideal.ofBits .f32 0x40E00000#32) (max (Ideal.ofBits .f32 0xC1000000#32)
    (Ideal.liftRound Ideal.roundHalfEven (Ideal.div (c (ix2 a b)) (broadcastTo S512x512 s broadcasts_S512x1_S512x512 (ix2 a b))))) = _
  rw [broadcastTo_apply s broadcasts_S512x1_S512x512 (ix2 a b) (ix2 a (0 : Fin 1)) (fun d => match d with
      | ⟨0, _⟩ => by show a.val = if (512 : Nat) = 1 then 0 else a.val; rw [if_neg (by decide)]
      | ⟨1, _⟩ => by show (0 : Nat) = if (1 : Nat) = 1 then 0 else b.val; rw [if_pos rfl])]
  rfl

/-- What every stretch's store writes at a block index: the block's entry there, quantised at its row's stored scale. -/
def quantAt (x : Vec Ideal S512x4096 .f32) (y : S512x4096.Idx) : EReal :=
  Cert.RowQuant.quant (scaleBlk (F := Ideal) x (ix2 (⟨(y 0).val, idx2_lt0 y⟩ : Fin 512) (0 : Fin 1))) (x y)

/-- The payload stored through the stretch of 512 columns from column `o` is that function on the stretch. -/
theorem quantPiece_apply (x : Vec Ideal S512x4096 .f32) (o : Nat)
    (inb : ∀ a, (![0, o] : Fin 2 → Nat) a + S512x512.size a ≤ S512x4096.size a)
    (j : (Rect.unit (s := S512x4096) ![0, o] S512x512.size inb).shape.Idx) :
    k0_pay2 (F := Ideal) (scaleBlk x) (View.ld x (Rect.unit (s := S512x4096) ![0, o] S512x512.size inb)) j
      = quantAt x ((Rect.unit (s := S512x4096) ![0, o] S512x512.size inb).emb j) := by
  obtain ⟨a, b, rfl⟩ : ∃ (a b : Fin 512), j = ix2 a b := ⟨j 0, j 1, eq_ix2 j⟩
  rw [quantStretch_apply]
  unfold quantAt
  have ha : (⟨(((Rect.unit (s := S512x4096) ![0, o] S512x512.size inb).emb (ix2 a b)) 0).val, idx2_lt0 _⟩ : Fin 512) = a :=
    Fin.ext (by show 0 + 1 * a.val = a.val; omega)
  rw [ha]
  rfl

/-- Index `(r, k)` lies in the stretch of 512 columns from column `o` when `k` does. -/
theorem mem_stretch (o : Nat) (inb : ∀ a, (![0, o] : Fin 2 → Nat) a + S512x512.size a ≤ S512x4096.size a)
    (r : Fin 512) (k : Fin 4096) (h1 : o ≤ k.val) (h2 : k.val < o + 512) :
    (ix2 r k : S512x4096.Idx) ∈ (Rect.unit (s := S512x4096) ![0, o] S512x512.size inb).set :=
  Rect.mem_set_unit.mpr (fun a => match a with
    | ⟨0, _⟩ => ⟨Nat.zero_le _, by show r.val < 0 + 512; omega⟩
    | ⟨1, _⟩ => ⟨h1, h2⟩)

/-- Entry `(r, k)` of the quantised block is the block's entry quantised at row `r`'s stored scale. -/
theorem quantBlk_apply (x : Vec Ideal S512x4096 .f32) (r : Fin 512) (k : Fin 4096) :
    quantBlk (F := Ideal) x (ix2 r k)
      = Cert.RowQuant.quant (scaleBlk (F := Ideal) x (ix2 r (0 : Fin 1))) (x (ix2 r k)) := by
  unfold quantBlk
  refine (View.canon_apply_of_pieces (Val := Elt Ideal) (quantAt x) _ ?_ (ix2 r k) ?_).trans rfl
  · -- each of the eight stores writes the one function on its stretch
    intro p hp
    simp only [List.mem_cons, List.not_mem_nil, or_false] at hp
    rcases hp with rfl | rfl | rfl | rfl | rfl | rfl | rfl | rfl
    all_goals exact fun j => quantPiece_apply x _ _ j
  · -- the eight stretches cover the columns
    have hk := k.isLt
    rcases (by omega : k.val < 512 ∨ (512 ≤ k.val ∧ k.val < 1024) ∨ (1024 ≤ k.val ∧ k.val < 1536) ∨ (1536 ≤ k.val ∧ k.val < 2048)
        ∨ (2048 ≤ k.val ∧ k.val < 2560) ∨ (2560 ≤ k.val ∧ k.val < 3072) ∨ (3072 ≤ k.val ∧ k.val < 3584) ∨ 3584 ≤ k.val)
      with h | h | h | h | h | h | h | h
    · -- column `k` lies in stretch 0
      exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem_stretch 0 inb_S512x4096_S512x512_0_0 r k (by omega) (by omega)⟩
    · -- column `k` lies in stretch 1
      exact ⟨_, List.mem_cons_of_mem _ (List.mem_cons_of_mem _ (List.mem_cons_of_mem _ (List.mem_cons_of_mem _ (List.mem_cons_of_mem _ (List.mem_cons_of_mem _ (List.mem_cons_self)))))), mem_stretch 512 inb_S512x4096_S512x512_0_512 r k (by omega) (by omega)⟩
    · -- column `k` lies in stretch 2
      exact ⟨_, List.mem_cons_of_mem _ (List.mem_cons_of_mem _ (List.mem_cons_of_mem _ (List.mem_cons_of_mem _ (List.mem_cons_of_mem _ (List.mem_cons_self))))), mem_stretch 1024 inb_S512x4096_S512x512_0_1024 r k (by omega) (by omega)⟩
    · -- column `k` lies in stretch 3
      exact ⟨_, List.mem_cons_of_mem _ (List.mem_cons_of_mem _ (List.mem_cons_of_mem _ (List.mem_cons_of_mem _ (List.mem_cons_self)))), mem_stretch 1536 inb_S512x4096_S512x512_0_1536 r k (by omega) (by omega)⟩
    · -- column `k` lies in stretch 4
      exact ⟨_, List.mem_cons_of_mem _ (List.mem_cons_of_mem _ (List.mem_cons_of_mem _ (List.mem_cons_self))), mem_stretch 2048 inb_S512x4096_S512x512_0_2048 r k (by omega) (by omega)⟩
    · -- column `k` lies in stretch 5
      exact ⟨_, List.mem_cons_of_mem _ (List.mem_cons_of_mem _ (List.mem_cons_self)), mem_stretch 2560 inb_S512x4096_S512x512_0_2560 r k (by omega) (by omega)⟩
    · -- column `k` lies in stretch 6
      exact ⟨_, List.mem_cons_of_mem _ (List.mem_cons_self), mem_stretch 3072 inb_S512x4096_S512x512_0_3072 r k (by omega) (by omega)⟩
    · -- column `k` lies in stretch 7
      exact ⟨_, List.mem_cons_self, mem_stretch 3584 inb_S512x4096_S512x512_0_3584 r k (by omega) (by omega)⟩

/-- The product's left operand index keeps the output row on axis 0 … -/
theorem lhs_dot_0 (i : S512x512.Idx) (q : dot_S512x4096_S512x4096_S512x512_1_1_0_0_n_n.contr.Idx) :
    (dot_S512x4096_S512x4096_S512x512_1_1_0_0_n_n.lhsIdx i q 0).val = (i 0).val := by
  unfold DotDims.lhsIdx
  rw [dif_neg (show ¬(0 : Fin S512x4096.rank) ∈ dot_S512x4096_S512x4096_S512x512_1_1_0_0_n_n.lhsBatch by decide), dif_pos (show (0 : Fin S512x4096.rank) ∈ dot_S512x4096_S512x4096_S512x512_1_1_0_0_n_n.lhsNonContracting by decide)]
  rfl
/-- … and reads the contraction position on axis 1. -/
theorem lhs_dot_1 (i : S512x512.Idx) (q : dot_S512x4096_S512x4096_S512x512_1_1_0_0_n_n.contr.Idx) :
    (dot_S512x4096_S512x4096_S512x512_1_1_0_0_n_n.lhsIdx i q 1).val = (q ⟨0, by decide⟩).val :=
  dot_S512x4096_S512x4096_S512x512_1_1_0_0_n_n.lhsIdx_val_of_single rfl i q
/-- The right operand index keeps the output column on axis 0 (the weights are stored row per output column) … -/
theorem rhs_dot_0 (i : S512x512.Idx) (q : dot_S512x4096_S512x4096_S512x512_1_1_0_0_n_n.contr.Idx) :
    (dot_S512x4096_S512x4096_S512x512_1_1_0_0_n_n.rhsIdx i q 0).val = (i 1).val := by
  unfold DotDims.rhsIdx
  rw [dif_neg (show ¬(0 : Fin S512x4096.rank) ∈ dot_S512x4096_S512x4096_S512x512_1_1_0_0_n_n.rhsBatch by decide), dif_pos (show (0 : Fin S512x4096.rank) ∈ dot_S512x4096_S512x4096_S512x512_1_1_0_0_n_n.rhsNonContracting by decide)]
  rfl
/-- … and reads the contraction position on axis 1. -/
theorem rhs_dot_1 (i : S512x512.Idx) (q : dot_S512x4096_S512x4096_S512x512_1_1_0_0_n_n.contr.Idx) :
    (dot_S512x4096_S512x4096_S512x512_1_1_0_0_n_n.rhsIdx i q 1).val = (q ⟨0, by decide⟩).val :=
  dot_S512x4096_S512x4096_S512x512_1_1_0_0_n_n.rhsIdx_val_of_single rfl i q

/-- Entry `(r, n)` of the output block: row `r` of the quantised activations against row `n` of the weights, times
    row `r`'s scale, times column `n`'s weight scale. -/
theorem rescaledProduct_apply (q : Vec Ideal S512x4096 .bf16) (s : Vec Ideal S512x1 .f32)
    (w : Vec Ideal S512x4096 .bf16) (ws : Vec Ideal S1x512 .f32) (r n : Fin 512) :
    k0_pay4 (F := Ideal) q s w ws (ix2 r n)
      = (∑ k : Fin 4096, q (ix2 r k) * w (ix2 n k)) * s (ix2 r (0 : Fin 1)) * ws (ix2 (0 : Fin 1) n) := by
  unfold k0_pay4
  simp only [shapeCast_self, matmul]
  rw [mulf_apply, mulf_apply, Ideal.matmul_constant_zero_apply]
  -- the two broadcast scale factors: the row's scale along the columns, the column's weight scale along the rows
  have hs : broadcastTo S512x512 s broadcasts_S512x1_S512x512 (ix2 r n) = s (ix2 r (0 : Fin 1)) :=
    broadcastTo_apply s broadcasts_S512x1_S512x512 (ix2 r n) (ix2 r (0 : Fin 1)) (fun a => match a with
      | ⟨0, _⟩ => by show r.val = if (512 : Nat) = 1 then 0 else r.val; rw [if_neg (by decide)]
      | ⟨1, _⟩ => by show (0 : Nat) = if (1 : Nat) = 1 then 0 else n.val; rw [if_pos rfl])
  have hw : broadcastTo S512x512 ws broadcasts_S1x512_S512x512 (ix2 r n) = ws (ix2 (0 : Fin 1) n) :=
    broadcastTo_apply ws broadcasts_S1x512_S512x512 (ix2 r n) (ix2 (0 : Fin 1) n) (fun a => match a with
      | ⟨0, _⟩ => by show (0 : Nat) = if (1 : Nat) = 1 then 0 else r.val; rw [if_pos rfl]
      | ⟨1, _⟩ => by show n.val = if (512 : Nat) = 1 then 0 else n.val; rw [if_neg (by decide)])
  rw [hs, hw]
  congr 2
  -- the contraction index is its one coordinate
  rw [← Equiv.sum_comp (contrEquiv1 dot_S512x4096_S512x4096_S512x512_1_1_0_0_n_n 4096 rfl rfl).symm]
  refine Finset.sum_congr rfl fun k _ => ?_
  have hk := contrEquiv1_symm_val dot_S512x4096_S512x4096_S512x512_1_1_0_0_n_n 4096 rfl rfl k
  have el : dot_S512x4096_S512x4096_S512x512_1_1_0_0_n_n.lhsIdx (ix2 r n)
      ((contrEquiv1 dot_S512x4096_S512x4096_S512x512_1_1_0_0_n_n 4096 rfl rfl).symm k) = ix2 r k :=
    funext fun a => Fin.ext (by
      match a with
      | ⟨0, _⟩ => exact lhs_dot_0 _ _
      | ⟨1, _⟩ => exact (lhs_dot_1 _ _).trans hk)
  have er : dot_S512x4096_S512x4096_S512x512_1_1_0_0_n_n.rhsIdx (ix2 r n)
      ((contrEquiv1 dot_S512x4096_S512x4096_S512x512_1_1_0_0_n_n 4096 rfl rfl).symm k) = ix2 n k :=
    funext fun a => Fin.ext (by
      match a with
      | ⟨0, _⟩ => exact rhs_dot_0 _ _
      | ⟨1, _⟩ => exact (rhs_dot_1 _ _).trans hk)
  rw [el, er]

end Cert.KernelIdeal.BlockValues

end
-- ==== Proof.Points.lean ====
/-
  From the grid points to the whole result array.

  The grid has 16 row tiles of 512 rows and, inside each, 8 column tiles of 512 columns; point `t` is row tile
  `t / 8`, column tile `t % 8`. The activations' block at `t` is rows `512 (t / 8) …` of the activations; the weights'
  block is rows `512 (t % 8) …` of the weight matrix, and the weight scales' block the same stretch of the scales.
  The two scratch buffers are written at a row tile's first column tile and kept until its last, so after any point
  they hold the scales and the quantised rows of the point's own row tile (an induction over the points). Every
  point's output block is then the rescaled product of those with the point's weight block, which is the block of ONE
  function of the three arrays; the blocks tile the result, so the result is that function.
-/
import proofs.«412723_j1176821039709_2_alg».proof.Proof.Gen.KernelIdeal.Value
import proofs.«412723_j1176821039709_2_alg».proof.Proof.Pieces
import proofs.«412723_j1176821039709_2_alg».proof.Proof.BlockValues
import proofs.«412723_j1176821039709_2_alg».proof.Proof.RowQuant
import Idealize.ShloMosaic.Lib.ValueIdx
import Idealize.ShloMosaic.Lib.Pipeline.Value

set_option maxRecDepth 16384

noncomputable section

namespace Cert.KernelIdeal.Points

open Cert.KernelIdeal Cert.KernelIdeal.Gen Cert.KernelIdeal.Pieces Cert.KernelIdeal.BlockValues
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- The three arrays the region reads, as it finds them: the activations, the weight matrix, the weight scales. -/
abbrev actArr (c : Dev nD) : S8192x4096.Idx → EReal := V m c main_arg0
abbrev wgtArr (c : Dev nD) : S4096x4096.Idx → EReal := V m c main_v20
abbrev wscArr (c : Dev nD) : S1x4096.Idx → EReal := V m c main_v21

/-- Their blocks at a grid point. -/
abbrev actBlk (c : Dev nD) (t : Fin cfg0.N) : Vec Ideal S512x4096 .f32 := iblk m c 0 t
abbrev wgtBlk (c : Dev nD) (t : Fin cfg0.N) : Vec Ideal S512x4096 .bf16 := iblk m c 1 t
abbrev wscBlk (c : Dev nD) (t : Fin cfg0.N) : Vec Ideal S1x512 .f32 := iblk m c 2 t

/-- Row `r` of the row tile that point `n` lies in, as a row of the whole array. -/
def rowAt (n : ℕ) (r : Fin 512) : Fin 8192 := ⟨(512 * (n / 8) + r.val) % 8192, Nat.mod_lt _ (by norm_num)⟩
/-- Column `j` of the column tile that point `n` lies in, as a column of the whole array. -/
def colAt (n : ℕ) (j : Fin 512) : Fin 4096 := ⟨(512 * (n % 8) + j.val) % 4096, Nat.mod_lt _ (by norm_num)⟩

/-- The number of grid points. -/
theorem N_eq : cfg0.N = 128 := N_0

/-- The windows' block indices at a point: row tile `t / 8`, column tile `t % 8` — decided over the grid. -/
theorem index_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = 0 ∧ win0_2.index t (1 : Fin 2) = t.val % 8
    ∧ win0_3.index t (0 : Fin 2) = t.val / 8 ∧ win0_3.index t (1 : Fin 2) = t.val % 8 :=
  (by decide +kernel : ∀ t : Fin grid0.N, _)

/-- The activations' block at `t` is rows `512 (t / 8) …` of the activations. -/
theorem actBlk_apply (c : Dev nD) (t : Fin cfg0.N) (r : Fin 512) (k : Fin 4096) :
    actBlk m c t (ix2 r k) = actArr m c (ix2 (rowAt t.val r) k) := by
  obtain ⟨e0, e1, -⟩ := index_facts t
  have hN : t.val < 128 := lt_of_lt_of_eq t.isLt N_eq
  show V m c main_arg0 (((cfg0.win 0).blk t).view.emb (ix2 r k)) = V m c main_arg0 (ix2 (rowAt t.val r) k)
  refine congrArg _ (funext fun a => Fin.ext ?_)
  match a with
  | ⟨0, _⟩ =>
    show win0_0.index t (0 : Fin 2) * 512 + 1 * r.val = (512 * (t.val / 8) + r.val) % 8192
    have := r.isLt; omega
  | ⟨1, _⟩ =>
    show win0_0.index t (1 : Fin 2) * 4096 + 1 * k.val = k.val
    omega

/-- The weights' block at `t` is rows `512 (t % 8) …` of the weight matrix. -/
theorem wgtBlk_apply (c : Dev nD) (t : Fin cfg0.N) (j : Fin 512) (k : Fin 4096) :
    wgtBlk m c t (ix2 j k) = wgtArr m c (ix2 (colAt t.val j) k) := by
  obtain ⟨-, -, e0, e1, -⟩ := index_facts t
  show V m c main_v20 (((cfg0.win 1).blk t).view.emb (ix2 j k)) = V m c main_v20 (ix2 (colAt t.val j) k)
  refine congrArg _ (funext fun a => Fin.ext ?_)
  match a with
  | ⟨0, _⟩ =>
    show win0_1.index t (0 : Fin 2) * 512 + 1 * j.val = (512 * (t.val % 8) + j.val) % 4096
    have := j.isLt; omega
  | ⟨1, _⟩ =>
    show win0_1.index t (1 : Fin 2) * 4096 + 1 * k.val = k.val
    omega

/-- The weight scales' block at `t` is the stretch `512 (t % 8) …` of the scales. -/
theorem wscBlk_apply (c : Dev nD) (t : Fin cfg0.N) (j : Fin 512) :
    wscBlk m c t (ix2 (0 : Fin 1) j) = wscArr m c (ix2 (0 : Fin 1) (colAt t.val j)) := by
  obtain ⟨-, -, -, -, e0, e1, -⟩ := index_facts t
  show V m c main_v21 (((cfg0.win 2).blk t).view.emb (ix2 (0 : Fin 1) j)) = V m c main_v21 (ix2 (0 : Fin 1) (colAt t.val j))
  refine congrArg _ (funext fun a => Fin.ext ?_)
  match a with
  | ⟨0, _⟩ =>
    show win0_2.index t (0 : Fin 2) * 1 + 1 * 0 = 0
    omega
  | ⟨1, _⟩ =>
    show win0_2.index t (1 : Fin 2) * 512 + 1 * j.val = (512 * (t.val % 8) + j.val) % 4096
    have := j.isLt; omega

/-- WHAT EVERY POINT'S OUTPUT BLOCK IS: the rescaled product of what the two scratch buffers hold after the point with
    the point's weight and weight-scale blocks — at a row tile's first column tile the body has just stored them, at
    the others it finds them as the point before left them. -/
theorem out_eq (c : Dev nD) (t : Fin cfg0.N) :
    (outsAt0 m c t.val t.isLt).1
      = k0_pay4 (F := Ideal) (outsAt0 m c t.val t.isLt).2.1 (outsAt0 m c t.val t.isLt).2.2 (wgtBlk m c t) (wscBlk m c t) := by
  by_cases h0 : t.val % 8 = 0
  · rw [outsAt0_A m c t h0]
    dsimp only
    rw [quantScratch_first (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (actBlk m c t) (wgtBlk m c t) (wscBlk m c t),
      scaleScratch_first (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (actBlk m c t) (wgtBlk m c t) (wscBlk m c t)]
    exact out_first (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (actBlk m c t) (wgtBlk m c t) (wscBlk m c t)
  · rw [outsAt0_B m c t h0]
    dsimp only
    exact out_later (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (actBlk m c t) (wgtBlk m c t) (wscBlk m c t) _ _

/-- The scale of row `r` of the row tile that point `n` lies in. -/
def rowScale (c : Dev nD) (n : ℕ) (r : Fin 512) : EReal :=
  Cert.RowQuant.scale (fun k : Fin 4096 => actArr m c (ix2 (rowAt n r) k))

/-- WHAT THE SCRATCH BUFFERS HOLD AFTER EVERY POINT: the scales and the quantised rows of the point's own row tile. At a
    row tile's first column tile the body stores them, computed from the activations' block, which is the row tile's
    rows; at the other column tiles it leaves them alone, and the point before lies in the same row tile. -/
theorem scratch_after (c : Dev nD) : ∀ (n : ℕ) (h : n < cfg0.N),
    (∀ r : Fin 512, (outsAt0 m c n h).2.2 (ix2 r (0 : Fin 1)) = rowScale m c n r)
    ∧ (∀ (r : Fin 512) (k : Fin 4096), (outsAt0 m c n h).2.1 (ix2 r k)
        = Cert.RowQuant.quant (rowScale m c n r) (actArr m c (ix2 (rowAt n r) k))) := by
  intro n
  induction n using Nat.strong_induction_on with
  | _ n ih =>
    intro h
    have hN : n < 128 := lt_of_lt_of_eq h N_eq
    have hrow : ∀ r : Fin 512, Cert.RowQuant.scale (fun k : Fin 4096 => actBlk m c ⟨n, h⟩ (ix2 r k)) = rowScale m c n r :=
      fun r => congrArg Cert.RowQuant.scale (funext fun k => actBlk_apply m c ⟨n, h⟩ r k)
    by_cases h0 : n % 8 = 0
    · rw [outsAt0_A m c ⟨n, h⟩ h0]
      dsimp only
      rw [quantScratch_first (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) scM0_1 (Memref.isWhole_whole _) ((hcond0_0 ⟨n, h⟩).mpr h0) (actBlk m c ⟨n, h⟩) (wgtBlk m c ⟨n, h⟩) (wscBlk m c ⟨n, h⟩),
        scaleScratch_first (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) scM0_1 (Memref.isWhole_whole _) ((hcond0_0 ⟨n, h⟩).mpr h0) (actBlk m c ⟨n, h⟩) (wgtBlk m c ⟨n, h⟩) (wscBlk m c ⟨n, h⟩)]
      refine ⟨fun r => ?_, fun r k => ?_⟩
      · rw [scaleBlk_apply, hrow]
      · rw [quantBlk_apply, scaleBlk_apply, hrow, actBlk_apply]
    · rw [outsAt0_B m c ⟨n, h⟩ h0]
      dsimp only [sout0_B_0, sout0_B_1]
      have hlt : n - 1 < cfg0.N := lt_of_lt_of_eq (by omega) N_eq.symm
      obtain ⟨ihs, ihq⟩ := ih (n - 1) (by omega) hlt
      have er : ∀ r : Fin 512, rowAt (n - 1) r = rowAt n r := fun r => Fin.ext (by
        show (512 * ((n - 1) / 8) + r.val) % 8192 = (512 * (n / 8) + r.val) % 8192
        omega)
      have es : ∀ r : Fin 512, rowScale m c (n - 1) r = rowScale m c n r := fun r => by
        unfold rowScale; rw [er r]
      refine ⟨fun r => ?_, fun r k => ?_⟩
      · exact (ihs r).trans (es r)
      · exact (ihq r k).trans (by rw [es r, er r])

/-- THE RESULT'S ENTRY at row `R`, column `N`, as the kernel computes it: row `R` of the activations quantised at its
    scale, against row `N` of the weights, times the row's scale, times the column's weight scale. -/
def resultAt (c : Dev nD) (R : Fin 8192) (N : Fin 4096) : EReal :=
  (∑ k : Fin 4096, Cert.RowQuant.quant (Cert.RowQuant.scale (fun k' : Fin 4096 => actArr m c (ix2 R k'))) (actArr m c (ix2 R k))
      * wgtArr m c (ix2 N k))
    * Cert.RowQuant.scale (fun k' : Fin 4096 => actArr m c (ix2 R k')) * wscArr m c (ix2 (0 : Fin 1) N)

/-- The result array: `resultAt` at an index's two coordinates. -/
def resultArr (c : Dev nD) : S8192x4096.Idx → EReal :=
  fun i => resultAt m c ⟨(i 0).val, idx2_lt0 i⟩ ⟨(i 1).val, idx2_lt1 i⟩

theorem resultArr_ix2 (c : Dev nD) (R : Fin 8192) (N : Fin 4096) : resultArr m c (ix2 R N) = resultAt m c R N := rfl

/-- WHAT POINT `t` WRITES BACK is block `t` of the result array: rows `512 (t / 8) …`, columns `512 (t % 8) …`. -/
theorem flushed_eq (c : Dev nD) (t : Fin cfg0.N) :
    (dats m 0 c).flushed 3 t = ((cfg0.win 3).blk t).view.read (Elt Ideal) (resultArr m c) := by
  rw [Value.flushed3]
  obtain ⟨-, -, -, -, -, -, e0, e1⟩ := index_facts t
  have hN : t.val < 128 := lt_of_lt_of_eq t.isLt N_eq
  show (outsAt0 m c t.val t.isLt).1 = fun j : S512x512.Idx => resultArr m c (((cfg0.win 3).blk t).view.emb j)
  funext j
  obtain ⟨r, n, rfl⟩ : ∃ (r : Fin 512) (n : Fin 512), j = ix2 r n := ⟨j 0, j 1, eq_ix2 j⟩
  have hemb : ((cfg0.win 3).blk t).view.emb (ix2 r n) = ix2 (rowAt t.val r) (colAt t.val n) :=
    funext fun a => Fin.ext (by
      match a with
      | ⟨0, _⟩ =>
        show win0_3.index t (0 : Fin 2) * 512 + 1 * r.val = (512 * (t.val / 8) + r.val) % 8192
        have := r.isLt; omega
      | ⟨1, _⟩ =>
        show win0_3.index t (1 : Fin 2) * 512 + 1 * n.val = (512 * (t.val % 8) + n.val) % 4096
        have := n.isLt; omega)
  obtain ⟨hs, hq⟩ := scratch_after m c t.val t.isLt
  show (outsAt0 m c t.val t.isLt).1 (ix2 r n) = resultArr m c (((cfg0.win 3).blk t).view.emb (ix2 r n))
  rw [hemb, resultArr_ix2, out_eq, rescaledProduct_apply, hs r, wscBlk_apply]
  unfold resultAt rowScale
  refine congrArg (fun s => s * _ * _) (Finset.sum_congr rfl fun k _ => ?_)
  rw [hq r k, wgtBlk_apply]
  rfl

/-- An index of the result is in point `t`'s block iff each coordinate is in the block's range on its axis. -/
theorem mem_blk (t : Fin cfg0.N) (i : S8192x4096.Idx) :
    i ∈ ((cfg0.win 3).blk t).view.set
      ↔ ∀ a : Fin 2, win0_3.index t a * S512x512.size a ≤ (i a).val ∧ (i a).val < win0_3.index t a * S512x512.size a + S512x512.size a := by
  show i ∈ ((View.whole main_v22).slice (win0_3.rect t)).set ↔ _
  rw [View.set_slice_whole, Rect.mem_set_unit]
  exact Iff.rfl

/-- THE BLOCKS TILE THE RESULT: entry `(R, N)` lies in the block of the point at row tile `R / 512`, column tile
    `N / 512`. -/
theorem cover (i : S8192x4096.Idx) :
    ∃ t : Fin cfg0.N, (cfg0.win 3).flush t = true ∧ i ∈ ((cfg0.win 3).blk t).view.set := by
  have hi0 : (i 0).val < 8192 := idx2_lt0 i
  have hi1 : (i 1).val < 4096 := idx2_lt1 i
  have htv : 8 * ((i 0).val / 512) + (i 1).val / 512 < cfg0.N := lt_of_lt_of_eq (by omega) N_eq.symm
  refine ⟨⟨8 * ((i 0).val / 512) + (i 1).val / 512, htv⟩, flush0_3 _, ?_⟩
  rw [mem_blk]
  obtain ⟨-, -, -, -, -, -, e0, e1⟩ := index_facts ⟨8 * ((i 0).val / 512) + (i 1).val / 512, htv⟩
  have e0' : win0_3.index ⟨8 * ((i 0).val / 512) + (i 1).val / 512, htv⟩ (0 : Fin 2) = (8 * ((i 0).val / 512) + (i 1).val / 512) / 8 := e0
  have e1' : win0_3.index ⟨8 * ((i 0).val / 512) + (i 1).val / 512, htv⟩ (1 : Fin 2) = (8 * ((i 0).val / 512) + (i 1).val / 512) % 8 := e1
  intro a
  match a with
  | ⟨0, _⟩ =>
    show win0_3.index ⟨8 * ((i 0).val / 512) + (i 1).val / 512, htv⟩ (0 : Fin 2) * 512 ≤ (i 0).val
      ∧ (i 0).val < win0_3.index ⟨8 * ((i 0).val / 512) + (i 1).val / 512, htv⟩ (0 : Fin 2) * 512 + 512
    rw [e0']; omega
  | ⟨1, _⟩ =>
    show win0_3.index ⟨8 * ((i 0).val / 512) + (i 1).val / 512, htv⟩ (1 : Fin 2) * 512 ≤ (i 1).val
      ∧ (i 1).val < win0_3.index ⟨8 * ((i 0).val / 512) + (i 1).val / 512, htv⟩ (1 : Fin 2) * 512 + 512
    rw [e1']; omega

/-- THE RESULT ARRAY after the run. -/
theorem final (c : Dev nD) : (dats m 0 c).arrAt 3 cfg0.N = resultArr m c :=
  (dats m 0 c).arrAt_eq_of_cover 3 (resultArr m c) (fun t _ => flushed_eq m c t) (cover)

/-- The kernel's run: the result array ends at `resultArr`, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v22) = resultArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Points

end
-- ==== Proof.RefValue.lean ====
/-
  The reference program computes `Cert.RowQuant.result` of its three arguments: its row maximum is the supremum of the
  row's magnitudes, its scale, rounding and clipping are `scale` and `quant`, its matrix product the sum over the
  contracted index, and its last two products the two scale factors multiplied first.
-/
import proofs.«412723_j1176821039709_2_alg».proof.Proof.Gen.ReferenceIdeal.Read
import proofs.«412723_j1176821039709_2_alg».proof.Proof.RowQuant
import Idealize.ShloMosaic.Lib.ValueIdx

set_option maxRecDepth 16384

noncomputable section

namespace Cert.ReferenceIdeal.RefValue

open Cert.ReferenceIdeal Cert.ReferenceIdeal.Gen Cert.ReferenceIdeal.Read Idealize.ShloMosaic Idealize.ShloMosaic.ValueIdx

/-- The unpacked integer weight matrix (two signed nibbles per packed word, low nibble first), as extended reals. -/
def weights (x1 : (⟨S4096x2048, .i32⟩ : BufTy).Contents (Elt Ideal)) (n k : Fin 4096) : EReal :=
  (((val_main_v30 (F := Ideal) x1 (ix2 n k)).toInt : ℝ) : EReal)

/-- The row maximum at row `r` is the largest magnitude among the row's entries: the maximum folded from `-∞` over the
    4096 coordinates of the reduced axis is their supremum, and each folded term is the magnitude of one entry. -/
theorem rowMax_apply (x0 : (⟨S8192x4096, .f32⟩ : BufTy).Contents (Elt Ideal)) (r : Fin 8192) :
    val_main_v1 (F := Ideal) x0 (ix1 r) = Cert.RowQuant.absMax (fun k => x0 (ix2 r k)) := by
  have h : S8192x4096.Reduces [1] S8192 := by decide
  have key := Host.reduce_eq_fold_single (FloatOps.maximumf (F := Ideal) (φ := .f32))
    (val_main_v0 (F := Ideal) x0) (val_main_cst (F := Ideal)) reducesTo_S8192x4096_S8192_d1 h h_S_ (ix1 r)
  have e : ∀ k : Fin 4096, h.lift (ix1 r) k = ix2 r k := fun k => funext fun a => Fin.ext (by
    match a with
    | ⟨0, _⟩ => rfl
    | ⟨1, _⟩ => rfl)
  have hg : (val_main_v0 (F := Ideal) x0 ∘ h.lift (ix1 r)) = fun k : Fin 4096 => Cert.RowQuant.mag (x0 (ix2 r k)) := by
    funext k
    show val_main_v0 (F := Ideal) x0 (h.lift (ix1 r) k) = _
    rw [e k, val_main_v0_apply]
    rfl
  unfold val_main_v1
  refine key.trans ?_
  rw [hg, val_main_cst_apply]
  exact Cert.RowQuant.fold_max_negInf _

/-- The scale the reference gives row `r` (a seventh of the row maximum, kept at least the least scale) is the row's
    `scale`. -/
theorem scale_apply (x0 : (⟨S8192x4096, .f32⟩ : BufTy).Contents (Elt Ideal)) (r : Fin 8192) :
    val_main_v6 (F := Ideal) x0 (ix2 r (0 : Fin 1)) = Cert.RowQuant.scale (fun k => x0 (ix2 r k)) := by
  have e2 : idx_main_v2 (ix2 r (0 : Fin 1)) = ix1 r := funext fun a => Fin.ext (by
    match a with
    | ⟨0, _⟩ => rfl)
  rw [val_main_v6_apply, val_main_v4_apply, val_main_v2_apply, val_main_v3_apply, val_main_v5_apply,
    val_main_cst_0_apply, val_main_cst_1_apply, e2, rowMax_apply]
  rfl

/-- The reference's clipped, rounded quotient at row `r`, entry `k` is the entry quantised at the row's scale. -/
theorem quant_apply (x0 : (⟨S8192x4096, .f32⟩ : BufTy).Contents (Elt Ideal)) (r : Fin 8192) (k : Fin 4096) :
    val_main_v10 (F := Ideal) x0 (ix2 r k)
      = Cert.RowQuant.quant (Cert.RowQuant.scale (fun k => x0 (ix2 r k))) (x0 (ix2 r k)) := by
  have e7 : idx_main_v7 (ix2 r k) = ix2 r (0 : Fin 1) := funext fun a => Fin.ext (by
    match a with
    | ⟨0, _⟩ => rfl
    | ⟨1, _⟩ => rfl)
  rw [val_main_v10_apply, val_main_call1_v4_apply, val_main_call1_v3_apply, val_main_cst_3_apply,
    val_main_call1_v2_apply, val_main_call1_v1_apply, val_main_call1_v0_apply, val_main_cst_2_apply,
    val_main_v9_apply, val_main_v8_apply, val_main_v7_apply, e7, scale_apply]
  rfl

/-- The transposed, converted weight array at `(k, c)` is the integer weight `weights c k`. -/
theorem weight_apply (x1 : (⟨S4096x2048, .i32⟩ : BufTy).Contents (Elt Ideal)) (k c : Fin 4096) :
    val_main_v32 (F := Ideal) x1 (ix2 k c) = weights x1 c k := by
  have e32 : idx_main_v32 (ix2 k c) = ix2 c k := funext fun a => Fin.ext (by
    match a with
    | ⟨0, _⟩ => rfl
    | ⟨1, _⟩ => rfl)
  rw [val_main_v32_apply, val_main_v31_apply, e32]
  rfl

/-- The reference's result at row `r`, column `c`. -/
theorem result_apply (x0 : (⟨S8192x4096, .f32⟩ : BufTy).Contents (Elt Ideal)) (x1 : (⟨S4096x2048, .i32⟩ : BufTy).Contents (Elt Ideal))
    (x2 : (⟨S4096, .f32⟩ : BufTy).Contents (Elt Ideal)) (r : Fin 8192) (c : Fin 4096) :
    val_main_v38 (F := Ideal) x0 x1 x2 (ix2 r c)
      = Cert.RowQuant.result (fun r k => x0 (ix2 r k)) (weights x1) (fun n => x2 (ix1 n)) r c := by
  have el : ∀ k : Fin 4096, lidx_main_v33 (ix2 r c) k = ix2 r k := fun k => funext fun a => Fin.ext (by
    match a with
    | ⟨0, _⟩ => rfl
    | ⟨1, _⟩ => rfl)
  have er : ∀ k : Fin 4096, ridx_main_v33 (ix2 r c) k = ix2 k c := fun k => funext fun a => Fin.ext (by
    match a with
    | ⟨0, _⟩ => rfl
    | ⟨1, _⟩ => rfl)
  have e35 : idx_main_v35 (ix2 r c) = ix2 r (0 : Fin 1) := funext fun a => Fin.ext (by
    match a with
    | ⟨0, _⟩ => rfl
    | ⟨1, _⟩ => rfl)
  have e36 : idx_main_v36 (ix2 r c) = ix2 (0 : Fin 1) c := funext fun a => Fin.ext (by
    match a with
    | ⟨0, _⟩ => rfl
    | ⟨1, _⟩ => rfl)
  have e34 : idx_main_v34 (ix2 (0 : Fin 1) c) = ix1 c := funext fun a => Fin.ext (by
    match a with
    | ⟨0, _⟩ => rfl)
  have hs : (∑ k : Fin 4096, (val_main_v10 (F := Ideal) x0) (lidx_main_v33 (ix2 r c) k)
        * (val_main_v32 (F := Ideal) x1) (ridx_main_v33 (ix2 r c) k))
      = ∑ k : Fin 4096, Cert.RowQuant.quant (Cert.RowQuant.scale (fun k => x0 (ix2 r k))) (x0 (ix2 r k)) * weights x1 c k :=
    Finset.sum_congr rfl fun k _ => by rw [el k, er k, quant_apply, weight_apply]
  rw [val_main_v38_apply, val_main_v33_apply, val_main_v37_apply, val_main_v35_apply, val_main_v36_apply,
    val_main_v34_apply, e35, e36, e34, scale_apply, hs]
  rfl

end Cert.ReferenceIdeal.RefValue

end
-- ==== Proof.HostPrefix.lean ====
/-
  The two arrays the host computes before the kernel is launched: the weight matrix the kernel multiplies by is the
  reference's own unpacked integer matrix (the same integer operations on the same packed words) converted to a float,
  and the weight scales are the argument laid out as one row.
-/
import proofs.«412723_j1176821039709_2_alg».proof.Proof.Gen.KernelIdeal.Frame
import proofs.«412723_j1176821039709_2_alg».proof.Proof.RefValue
import Idealize.ShloMosaic.Lib.ValueIdx
import Idealize.ShloMosaic.Lib.StableHlo.Run

set_option maxRecDepth 16384

noncomputable section

namespace Cert.KernelIdeal.HostPrefix

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-- Running one list of operations and then another is running the two lists joined. -/
theorem after_append (l₁ l₂ : List (HloOp τ sig (Elt Ideal))) (F : Valuation τ sig (Elt Ideal)) :
    StableHlo.after (l₁ ++ l₂) F = StableHlo.after l₂ (StableHlo.after l₁ F) := by
  induction l₁ generalizing F with
  | nil => rfl
  | cons op ops ih => exact ih _

/-- The buffers once the two nibbles of every packed word have been extracted and sign-extended: every operation
    before the two nibble matrices are interleaved. -/
def W (c : Dev nD) : Valuation τ sig (Elt Ideal) :=
  StableHlo.after (List.flatten [hostOps0, hostOps0_1, hostOps0_2, hostOps0_3]) (fun b => m (c, b))

/-- The buffers the region finds are those of `W` after the last six operations (two broadcasts, the concatenation, the
    reshape, the conversion to a float, and the reshape of the scales). -/
theorem V_split (c : Dev nD) (b : Ref sig .tc) :
    V m c b = StableHlo.after hostOps0_4 (W m c) (Proc.devRef .tc b) := by
  show StableHlo.after (List.flatten [hostOps0, hostOps0_1, hostOps0_2, hostOps0_3, hostOps0_4]) _ _ = _
  rw [show List.flatten [hostOps0 (F := Ideal), hostOps0_1, hostOps0_2, hostOps0_3, hostOps0_4]
        = List.flatten [hostOps0, hostOps0_1, hostOps0_2, hostOps0_3] ++ hostOps0_4 from by
      simp only [List.flatten_cons, List.flatten_nil, List.append_nil, List.append_assoc], after_append]
  rfl

/-- The low nibbles, sign-extended: `w & 15`, minus 16 where that exceeds 7 — the reference's own term. -/
theorem W_low (c : Dev nD) :
    (W m c (Proc.devRef .tc main_v10) : (⟨S4096x2048, .i32⟩ : BufTy).Contents (Elt Ideal))
      = Cert.ReferenceIdeal.Read.val_main_v21 (F := Ideal) (m ((c : Thread nD τ).loc main_arg1)) := by
  dsimp only [W]
  simp only [Gen.hostOps0, Gen.hostOps0_1, Gen.hostOps0_2, Gen.hostOps0_3, List.flatten_cons, List.flatten_nil,
    List.append_nil, List.cons_append, List.nil_append]
  after_results_simp
  rfl

/-- The high nibbles, sign-extended: `(w >> 4) & 15`, minus 16 where that exceeds 7 — the reference's own term. -/
theorem W_high (c : Dev nD) :
    (W m c (Proc.devRef .tc main_v15) : (⟨S4096x2048, .i32⟩ : BufTy).Contents (Elt Ideal))
      = Cert.ReferenceIdeal.Read.val_main_v26 (F := Ideal) (m ((c : Thread nD τ).loc main_arg1)) := by
  dsimp only [W]
  simp only [Gen.hostOps0, Gen.hostOps0_1, Gen.hostOps0_2, Gen.hostOps0_3, List.flatten_cons, List.flatten_nil,
    List.append_nil, List.cons_append, List.nil_append]
  after_results_simp
  rfl

/-- The weight matrix, as a whole array: the reference's unpacked integer matrix, each entry converted to a float. -/
theorem V_weights (c : Dev nD) :
    (V m c main_v20 : S4096x4096.Idx → EReal)
      = (sitofp (F := Ideal) .bf16 (Cert.ReferenceIdeal.Read.val_main_v30 (F := Ideal) (m ((c : Thread nD τ).loc main_arg1)))
          : S4096x4096.Idx → EReal) := by
  rw [V_split]
  dsimp only [Gen.hostOps0_4]
  after_results
  rw [W_low, W_high]
  rfl

/-- The weight matrix as the region finds it: the unpacked integer matrix of the packed argument. -/
theorem weightArr (c : Dev nD) (n k : Fin 4096) :
    (V m c main_v20 : S4096x4096.Idx → EReal) (ix2 n k)
      = Cert.ReferenceIdeal.RefValue.weights (m ((c : Thread nD τ).loc main_arg1)) n k := by
  rw [V_weights]
  rfl

/-- The weight scales as the region finds them: the argument, as one row. -/
theorem weightScaleArr (c : Dev nD) (n : Fin 4096) :
    (V m c main_v21 : S1x4096.Idx → EReal) (ix2 (0 : Fin 1) n)
      = (m ((c : Thread nD τ).loc main_arg2) : S4096.Idx → EReal) (ix1 n) := by
  have e : (V m c main_v21 : S1x4096.Idx → EReal)
      = shapeCast S1x4096 (m ((c : Thread nD τ).loc main_arg2) : S4096.Idx → EReal) shapeCasts_S4096_S1x4096 := by
    rw [V_split]
    dsimp only [Gen.hostOps0_4]
    after_results
    rfl
  rw [e]
  refine shapeCast_apply (s := S4096) (t := S1x4096) _ _ _ _ ?_
  rw [Shape.rowMajor_val_one, Shape.rowMajor_val_two]
  show (n : ℕ) = 0 * 4096 + (n : ℕ)
  omega

end Cert.KernelIdeal.HostPrefix

end
-- ==== Proof.Agree.lean ====
/-
  The two programs' results are one function of the arguments.

  The kernel's result array is `(∑ k, q r k · W c k) · s r · w c` over the arrays the region finds: the activations as
  launched, the unpacked integer weights, the weight scales as one row. The reference's is `Cert.RowQuant.result` of
  the same three arguments, `(∑ k, q r k · W c k) · (s r · w c)`. Multiplication of extended reals is associative, so
  the two agree at every index, with no condition on the inputs.
-/
import proofs.«412723_j1176821039709_2_alg».proof.Proof.Points
import proofs.«412723_j1176821039709_2_alg».proof.Proof.RefValue
import proofs.«412723_j1176821039709_2_alg».proof.Proof.HostPrefix

set_option maxRecDepth 16384

noncomputable section

namespace Cert.KernelIdeal.Agree

open Cert.KernelIdeal Cert.KernelIdeal.Gen Cert.KernelIdeal.Points
open Idealize.ShloMosaic Idealize.ShloMosaic.TcCoe Idealize.SL.Sem Idealize.ShloMosaic.ValueIdx

variable (m : (ℓ : Loc nD τ sig) → Buf (Elt Ideal) ℓ)

/-- The reference's value of the kernel's arguments is the kernel's result array. -/
theorem reference_eq_result (c : Dev nD) :
    Cert.ReferenceIdeal.Read.val_main_v38 (F := Ideal) (m ((c : Thread nD τ).loc main_arg0)) (m ((c : Thread nD τ).loc main_arg1))
        (m ((c : Thread nD τ).loc main_arg2))
      = resultArr m c := by
  funext i
  obtain ⟨R, N, rfl⟩ : ∃ (R : Fin 8192) (N : Fin 4096), i = ix2 R N := ⟨i 0, i 1, eq_ix2 i⟩
  rw [Cert.ReferenceIdeal.RefValue.result_apply, resultArr_ix2, ← Cert.RowQuant.result_eq_mul_mul]
  unfold resultAt
  have hx : ∀ (R : Fin 8192) (k : Fin 4096), actArr m c (ix2 R k) = m ((c : Thread nD τ).loc main_arg0) (ix2 R k) :=
    fun R k => congrFun (V_main_arg0 m c) _
  have hw : ∀ (N k : Fin 4096), wgtArr m c (ix2 N k)
      = Cert.ReferenceIdeal.RefValue.weights (m ((c : Thread nD τ).loc main_arg1)) N k :=
    fun N k => Cert.KernelIdeal.HostPrefix.weightArr m c N k
  have hs : wscArr m c (ix2 (0 : Fin 1) N) = m ((c : Thread nD τ).loc main_arg2) (ix1 N) :=
    Cert.KernelIdeal.HostPrefix.weightScaleArr m c N
  simp only [hx, hw, hs]

end Cert.KernelIdeal.Agree

end
-- ==== Proof.lean ====
/-
  The certificate of a linear layer with int4 weights and int4-quantised activations.

  Each row of the activations is scaled by a seventh of its largest magnitude (kept at least `1e-5`), its entries
  rounded to the nearest integer, ties to even, and clipped to `[-8, 7]`; the quantised rows are multiplied by the
  integer weight matrix (two signed nibbles per packed word), and the product rescaled by the row's scale and the
  column's weight scale. The kernel works tile by tile — 16 row tiles by 8 column tiles —, keeps a row tile's scales
  and quantised rows in scratch memory from its first column tile to its last, takes a row's largest magnitude in
  eight stretches, and applies the two scale factors one after the other; the reference works on whole arrays and
  multiplies the two scale factors first. Over the extended reals the two compute the same function of the arguments
  (`Cert.KernelIdeal.Agree.reference_eq_result`): the stretches' maxima fold to the row's, a matrix product does not
  depend on its tiling, and multiplication is associative. Nothing here needs the inputs to be finite.

  The three frames are the generated ones (the reference's is its generated run with the result dropped); no operation
  was rewritten in idealising the kernel, so `preserves` has nothing to state.
-/
import proofs.«412723_j1176821039709_2_alg».proof.Defs
import proofs.«412723_j1176821039709_2_alg».proof.Proof.Gen.Kernel
import proofs.«412723_j1176821039709_2_alg».proof.Proof.Gen.Kernel.Skeleton
import proofs.«412723_j1176821039709_2_alg».proof.Proof.Gen.Kernel.Launch
import proofs.«412723_j1176821039709_2_alg».proof.Proof.Gen.Kernel.Points
import proofs.«412723_j1176821039709_2_alg».proof.Proof.Gen.Kernel.Frame
import proofs.«412723_j1176821039709_2_alg».proof.Proof.Gen.KernelIdeal
import proofs.«412723_j1176821039709_2_alg».proof.Proof.Gen.KernelIdeal.Skeleton
import proofs.«412723_j1176821039709_2_alg».proof.Proof.Gen.KernelIdeal.Launch
import proofs.«412723_j1176821039709_2_alg».proof.Proof.Gen.KernelIdeal.Points
import proofs.«412723_j1176821039709_2_alg».proof.Proof.Gen.KernelIdeal.Frame
import proofs.«412723_j1176821039709_2_alg».proof.Proof.Gen.ReferenceIdeal
import proofs.«412723_j1176821039709_2_alg».proof.Proof.Gen.Pre_finite_inputs
import proofs.«412723_j1176821039709_2_alg».proof.Proof.Gen.KernelIdeal.Value
import proofs.«412723_j1176821039709_2_alg».proof.Proof.Gen.ReferenceIdeal.Run
import proofs.«412723_j1176821039709_2_alg».proof.Proof.Gen.ReferenceIdeal.Read
import proofs.«412723_j1176821039709_2_alg».proof.Proof.Agree
import Idealize.ShloMosaic.Adequacy
import Idealize.ShloMosaic.Init

noncomputable section

namespace Cert.Proof

open Idealize.ShloMosaic Idealize.SL.Sem Cert.Kernel

/-- The word-level kernel runs and leaves its arguments unchanged. -/
theorem frame_kernel [Cert.Kernel.Facts] [Cert.Pre_finite_inputs.Facts] : Cert.frame_Kernel :=
  fun m ρ _ => Cert.Kernel.Gen.frame m ρ

/-- So does the idealised kernel. -/
theorem frame_kernelIdeal [Cert.KernelIdeal.Facts] [Cert.Pre_finite_inputs.Facts] : Cert.frame_KernelIdeal :=
  fun m ρ _ => Cert.KernelIdeal.Gen.frame m ρ

/-- The reference runs and leaves its arguments unchanged: its run with the result dropped. -/
theorem frame_reference [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- From memories that agree on the arguments both idealised programs end with the same result array. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.Points.resultArr m c, Cert.KernelIdeal.Points.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v38_eq, (hagree c).1, (hagree c).2.1, (hagree c).2.2]
  exact Cert.KernelIdeal.Agree.reference_eq_result m c

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
